-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S8192x8192 : Shape := ⟨2, ![8192, 8192]⟩
abbrev S64x128 : Shape := ⟨2, ![64, 128]⟩
abbrev S128 : Shape := ⟨1, ![128]⟩
abbrev S128x128 : Shape := ⟨2, ![128, 128]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_arg5 : FVec F S128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S8192x64 .f32) (main_arg1 : FVec F S8192x8192 .f32) (main_arg2 : FVec F S64x128 .f32) (main_arg3 : FVec F S128 .f32) (main_arg4 : FVec F S128x128 .f32) (main_arg5 : FVec F S128 .f32) (main_arg6 : FVec F S128 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_v13 main_v16
-- ==== Kernel.lean ====
abbrev S8192x64 : Shape := ⟨2, ![8192, 64]⟩
abbrev S8192x8192 : Shape := ⟨2, ![8192, 8192]⟩
abbrev S64x128 : Shape := ⟨2, ![64, 128]⟩
abbrev S128 : Shape := ⟨1, ![128]⟩
abbrev S128x128 : Shape := ⟨2, ![128, 128]⟩
abbrev S8192x128 : Shape := ⟨2, ![8192, 128]⟩
abbrev S1x128 : Shape := ⟨2, ![1, 128]⟩
abbrev S_ : Shape := ⟨0, ![]⟩

abbrev nBuf : Space → Nat
  | .hbm => 38
  | .vmem => 7
  | .smem => 0
  | _ => 0

abbrev bufTy : (tb : Table) → Fin (tcTables nBuf tb) → BufTy
  | .hbm, ⟨0, _⟩ => ⟨S8192x64, .f32⟩
  | .hbm, ⟨1, _⟩ => ⟨S8192x8192, .f32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S8192x128, .f32⟩
  | .hbm, ⟨8, _⟩ => ⟨S1x128, .f32⟩
  | .hbm, ⟨9, _⟩ => ⟨S8192x128, .f32⟩
  | .hbm, ⟨10, _⟩ => ⟨S8192x128, .f32⟩
  | .hbm, ⟨11, _⟩ => ⟨S_, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S8192x128, .f32⟩
  | .hbm, ⟨16, _⟩ => ⟨S8192x128, .i1⟩
  | .hbm, ⟨17, _⟩ => ⟨S8192x128, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S8192x128, .f32⟩
  | .hbm, ⟨25, _⟩ => ⟨S8192x128, .f32⟩
  | .hbm, ⟨26, _⟩ => ⟨S1x128, .f32⟩
  | .hbm, ⟨27, _⟩ => ⟨S8192x128, .f32⟩
  | .hbm, ⟨28, _⟩ => ⟨S8192x128, .f32⟩
  | .hbm, ⟨29, _⟩ => ⟨S1x128, .f32⟩
  | .hbm, ⟨30, _⟩ => ⟨S128, .f32⟩
  | .hbm, ⟨31, _⟩ => ⟨S128, .f32⟩
  | .hbm, ⟨32, _⟩ => ⟨S128, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S128x128, .f32⟩
  | .local _ .vmem, ⟨3, _⟩ => ⟨S128x128, .f32⟩
  | .local _ .vmem, ⟨4, _⟩ => ⟨S8192x128, .f32⟩
  | .local _ .vmem, ⟨5, _⟩ => ⟨S1x128, .f32⟩
  | .local _ .vmem, ⟨6, _⟩ => ⟨S8192x128, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_call1_v0 : Ref sig .tc := ⟨.hbm, 32, rfl⟩
abbrev main_call1_cst : Ref sig .tc := ⟨.hbm, 33, rfl⟩
abbrev main_call1_v1 : Ref sig .tc := ⟨.hbm, 34, rfl⟩
abbrev main_v12 : Ref sig .tc := ⟨.hbm, 35, rfl⟩
abbrev main_cst : Ref sig .tc := ⟨.hbm, 36, rfl⟩
abbrev main_v13 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v30 : BitVec 1 := Scalar.cmpi .eq arg0 c63_i32
  let v31 : BitVec 32 := Scalar.extui v30
  let c0_i32_15 : BitVec 32 := 0#32
  let v32 : BitVec 1 := Scalar.cmpi .ne v31 c0_i32_15
  v32

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S8192x128_S128 : S8192x128.Reduces [0] S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S128 : S1x128.ShapeCasts S128
  reducesTo_S128_S_d0 : S128.ReducesTo [0] S_
  h_S_ : 0 < S_.numel
  dot_S8192x64_S64x128_S8192x128_1_0_0_1_n_n_wf : DotDims.WF S8192x64 S64x128 S8192x128 [1] [0] [0] [1] [] []
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x8192.size a
  hwx0_0 : ∀ i : grid0.Coords, EltTy.bits .f32 = 32 ∨ (Rect.block (s := S8192x8192) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S8192x128.size a
  hwx0_1 : ∀ i : grid0.Coords, EltTy.bits .f32 = 32 ∨ (Rect.block (s := S8192x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S8192x128.size a
  hwx0_2 : ∀ i : grid0.Coords, EltTy.bits .f32 = 32 ∨ (Rect.block (s := S8192x128) S8192x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)

variable [Facts₀]

def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_arg1) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S8192x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x64 : Shape := ⟨2, ![8192, 64]⟩
abbrev S8192x8192 : Shape := ⟨2, ![8192, 8192]⟩
abbrev S64x128 : Shape := ⟨2, ![64, 128]⟩
abbrev S128 : Shape := ⟨1, ![128]⟩
abbrev S128x128 : Shape := ⟨2, ![128, 128]⟩
abbrev S8192x128 : Shape := ⟨2, ![8192, 128]⟩
abbrev S1x128 : Shape := ⟨2, ![1, 128]⟩
abbrev S_ : Shape := ⟨0, ![]⟩

abbrev nBuf : Space → Nat
  | .hbm => 63
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x8192, .f32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S8192x128, .f32⟩
  | .hbm, ⟨8, _⟩ => ⟨S1x128, .f32⟩
  | .hbm, ⟨9, _⟩ => ⟨S8192x128, .f32⟩
  | .hbm, ⟨10, _⟩ => ⟨S8192x128, .f32⟩
  | .hbm, ⟨11, _⟩ => ⟨S_, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S8192x128, .f32⟩
  | .hbm, ⟨16, _⟩ => ⟨S8192x128, .i1⟩
  | .hbm, ⟨17, _⟩ => ⟨S8192x128, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S8192x128, .f32⟩
  | .hbm, ⟨25, _⟩ => ⟨S_, .f32⟩
  | .hbm, ⟨26, _⟩ => ⟨S8192x8192, .f32⟩
  | .hbm, ⟨27, _⟩ => ⟨S8192x8192, .i1⟩
  | .hbm, ⟨28, _⟩ => ⟨S_, .f32⟩
  | .hbm, ⟨29, _⟩ => ⟨S_, .f32⟩
  | .hbm, ⟨30, _⟩ => ⟨S8192x8192, .f32⟩
  | .hbm, ⟨31, _⟩ => ⟨S8192x8192, .f32⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S8192x8192, .f32⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S8192x8192, .f32⟩
  | .hbm, ⟨44, _⟩ => ⟨S_, .f32⟩
  | .hbm, ⟨45, _⟩ => ⟨S_, .f32⟩
  | .hbm, ⟨46, _⟩ => ⟨S8192x8192, .f32⟩
  | .hbm, ⟨47, _⟩ => ⟨S8192x8192, .f32⟩
  | .hbm, ⟨48, _⟩ => ⟨S8192x128, .f32⟩
  | .hbm, ⟨49, _⟩ => ⟨S1x128, .f32⟩
  | .hbm, ⟨50, _⟩ => ⟨S8192x128, .f32⟩
  | .hbm, ⟨51, _⟩ => ⟨S8192x128, .f32⟩
  | .hbm, ⟨52, _⟩ => ⟨S8192x128, .f32⟩
  | .hbm, ⟨53, _⟩ => ⟨S8192x128, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S128, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_v4 : Ref sig .tc := ⟨.hbm, 24, rfl⟩
abbrev main_cst : Ref sig .tc := ⟨.hbm, 25, rfl⟩
abbrev main_v5 : Ref sig .tc := ⟨.hbm, 26, rfl⟩
abbrev main_v6 : Ref sig .tc := ⟨.hbm, 27, rfl⟩
abbrev main_cst_0 : Ref sig .tc := ⟨.hbm, 28, rfl⟩
abbrev main_call1_v0 : Ref sig .tc := ⟨.hbm, 29, rfl⟩
abbrev main_call1_v1 : Ref sig .tc := ⟨.hbm, 30, rfl⟩
abbrev main_v7 : Ref sig .tc := ⟨.hbm, 31, rfl⟩
abbrev main_cst_1 : Ref sig .tc := ⟨.hbm, 32, rfl⟩
abbrev main_v8 : Ref sig .tc := ⟨.hbm, 33, rfl⟩
abbrev main_v9 : Ref sig .tc := ⟨.hbm, 34, rfl⟩
abbrev main_cst_2 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_cst_3 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_cst_4 : Ref sig .tc := ⟨.hbm, 44, rfl⟩
abbrev main_call2_v0 : Ref sig .tc := ⟨.hbm, 45, rfl⟩
abbrev main_call2_v1 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_cst_5 : Ref sig .tc := ⟨.hbm, 54, rfl⟩
abbrev main_v24 : Ref sig .tc := ⟨.hbm, 55, rfl⟩
abbrev main_v25 : Ref sig .tc := ⟨.hbm, 56, rfl⟩
abbrev main_call3_v0 : Ref sig .tc := ⟨.hbm, 57, rfl⟩
abbrev main_call3_cst : Ref sig .tc := ⟨.hbm, 58, rfl⟩
abbrev main_call3_v1 : Ref sig .tc := ⟨.hbm, 59, rfl⟩
abbrev main_v26 : Ref sig .tc := ⟨.hbm, 60, rfl⟩
abbrev main_cst_6 : Ref sig .tc := ⟨.hbm, 61, rfl⟩
abbrev main_v27 : Ref sig .tc := ⟨.hbm, 62, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S_S8192x8192 : S_.BroadcastsInDim S8192x8192 (![] : Fin 0 → Fin S8192x8192.rank)
  reducesTo_S8192x128_S128_d0 : S8192x128.ReducesTo [0] S128
  h_S_ : 0 < S_.numel
  reducesTo_S128_S_d0 : S128.ReducesTo [0] S_
  dot_S8192x64_S64x128_S8192x128_1_0_0_1_n_n_wf : DotDims.WF S8192x64 S64x128 S8192x128 [1] [0] [0] [1] [] []
  dot_S8192x128_S128x128_S8192x128_1_0_0_1_n_n_wf : DotDims.WF S8192x128 S128x128 S8192x128 [1] [0] [0] [1] [] []
  dot_S8192x8192_S8192x128_S8192x128_1_0_0_1_n_n_wf : DotDims.WF S8192x8192 S8192x128 S8192x128 [1] [0] [0] [1] [] []

variable [Facts₀]

def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.KPieces.lean ====
/-
  What each control case of the kernel body leaves behind, as a value.

  The body keeps a running accumulator (an [8192, 128] scratch) across the 64 grid points. At every
  point it adds to the accumulator one block product: the sensitivities of a [8192, 128] column tile of
  distances times the matching [128, 128] row tile of messages. At the first point the accumulator is
  first reset to zero; at the last point the on-site term is added and the rows are summed into the
  [1, 128] output block. Here each case's stores are read back as the pure terms they store:

    first point   : accumulator := update zero
    middle points : accumulator := update (accumulator before)
    last point    : accumulator := update (accumulator before),
                    output      := column sums of (on-site + that new accumulator)

  where `update a = a + sens(tile) · msg(tile)` is the body's one arithmetic payload. These hold at
  every float instance; the arithmetic is opened only later, at the ideal one.
-/
import proofs.«134853_j32134945309414_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Accum

open Cert.KernelIdeal Cert.KernelIdeal.Gen

variable {F : FTy → Type} [FloatOps F]

theorem origin2 : (![0, 0] : Fin 2 → Nat) = fun _ => 0 := funext fun a => by fin_cases a <;> rfl

/-- A middle point leaves the accumulator updated from what the point before left. -/
theorem carried_mid (c : Dev nD) (i : grid0.Coords) (a1 : Memref sig .tc .vmem S8192x128 .f32) (h1 : a1.IsWhole)
    (a2 : Memref sig .tc .vmem S128x128 .f32) (h2 : a2.IsWhole) (a3 : Memref sig .tc .vmem S8192x128 .f32) (h3 : a3.IsWhole)
    (a4 : Memref sig .tc .vmem S1x128 .f32) (h4 : a4.IsWhole) (a5 : Memref sig .tc .vmem S8192x128 .f32) (h5 : a5.IsWhole)
    (hc0 : ¬cond0_0 i) (hc1 : ¬cond0_1 i)
    (x0 : Vec F S8192x128 .f32) (x1 : Vec F S128x128 .f32) (x2 : Vec F S8192x128 .f32) (xs0 : Vec F S8192x128 .f32) :
    sout0_B_0 c i a1 h1 a2 h2 a3 h3 a4 h4 a5 h5 hc0 hc1 x0 x1 x2 xs0 = k0_pay2 x0 x1 xs0 := by
  unfold sout0_B_0
  rw [View.read_writes_eq_canon _ _ _ (scover0_B_0 c i a1 h1 a2 h2 a3 h3 a4 h4 a5 h5 hc0 hc1 x0 x1 x2 xs0)]
  unfold kernelRun0_B
  dsimp only
  sl_unfold_words
  rw [View.canon_unit_zero origin2]
  simp only [View.readAt_eq_ld, h1.read_unread, h2.read_unread, h5.read_unread, View.ld_unit_zero (S := S8192x128) origin2,
    View.ld_unit_zero (S := S128x128) origin2]

/-- The last point leaves the accumulator updated in the same way, -/
theorem carried_last (c : Dev nD) (i : grid0.Coords) (a1 : Memref sig .tc .vmem S8192x128 .f32) (h1 : a1.IsWhole)
    (a2 : Memref sig .tc .vmem S128x128 .f32) (h2 : a2.IsWhole) (a3 : Memref sig .tc .vmem S8192x128 .f32) (h3 : a3.IsWhole)
    (a4 : Memref sig .tc .vmem S1x128 .f32) (h4 : a4.IsWhole) (a5 : Memref sig .tc .vmem S8192x128 .f32) (h5 : a5.IsWhole)
    (hc0 : ¬cond0_0 i) (hc1 : cond0_1 i)
    (x0 : Vec F S8192x128 .f32) (x1 : Vec F S128x128 .f32) (x2 : Vec F S8192x128 .f32) (xs0 : Vec F S8192x128 .f32) :
    sout0_C_0 c i a1 h1 a2 h2 a3 h3 a4 h4 a5 h5 hc0 hc1 x0 x1 x2 xs0 = k0_pay2 x0 x1 xs0 := by
  unfold sout0_C_0
  rw [View.read_writes_eq_canon _ _ _ (scover0_C_0 c i a1 h1 a2 h2 a3 h3 a4 h4 a5 h5 hc0 hc1 x0 x1 x2 xs0)]
  unfold kernelRun0_C
  dsimp only
  sl_unfold_words
  rw [View.canon_unit_zero origin2]
  simp only [View.readAt_eq_ld, h1.read_unread, h2.read_unread, h5.read_unread, View.ld_unit_zero (S := S8192x128) origin2,
    View.ld_unit_zero (S := S128x128) origin2]

/-- and writes the output block: the column sums of the on-site block plus that new accumulator. -/
theorem output_last (c : Dev nD) (i : grid0.Coords) (a1 : Memref sig .tc .vmem S8192x128 .f32) (h1 : a1.IsWhole)
    (a2 : Memref sig .tc .vmem S128x128 .f32) (h2 : a2.IsWhole) (a3 : Memref sig .tc .vmem S8192x128 .f32) (h3 : a3.IsWhole)
    (a4 : Memref sig .tc .vmem S1x128 .f32) (h4 : a4.IsWhole) (a5 : Memref sig .tc .vmem S8192x128 .f32) (h5 : a5.IsWhole)
    (hc0 : ¬cond0_0 i) (hc1 : cond0_1 i)
    (x0 : Vec F S8192x128 .f32) (x1 : Vec F S128x128 .f32) (x2 : Vec F S8192x128 .f32) (xs0 : Vec F S8192x128 .f32) :
    out0_C_3 c i a1 h1 a2 h2 a3 h3 a4 h4 a5 h5 hc0 hc1 x0 x1 x2 xs0 = k0_pay3 x2 (k0_pay2 x0 x1 xs0) := by
  unfold out0_C_3
  rw [View.read_writes_eq_canon _ _ _ (cover0_C_3 c i a1 h1 a2 h2 a3 h3 a4 h4 a5 h5 hc0 hc1 x0 x1 x2 xs0)]
  unfold kernelRun0_C
  dsimp only
  sl_unfold_words
  rw [View.canon_unit_zero origin2]
  simp only [View.readAt_eq_ld, h1.read_unread, h2.read_unread, h3.read_unread, h5.read_unread,
    View.ld_unit_zero (S := S8192x128) origin2, View.ld_unit_zero (S := S128x128) origin2,
    View.readCov_unit_zero (S := S8192x128) _ origin2]

/-- The first point resets the accumulator to the zero block and then updates it. -/
theorem carried_first (c : Dev nD) (i : grid0.Coords) (a1 : Memref sig .tc .vmem S8192x128 .f32) (h1 : a1.IsWhole)
    (a2 : Memref sig .tc .vmem S128x128 .f32) (h2 : a2.IsWhole) (a3 : Memref sig .tc .vmem S8192x128 .f32) (h3 : a3.IsWhole)
    (a4 : Memref sig .tc .vmem S1x128 .f32) (h4 : a4.IsWhole) (a5 : Memref sig .tc .vmem S8192x128 .f32) (h5 : a5.IsWhole)
    (hc0 : cond0_0 i) (hc1 : ¬cond0_1 i)
    (x0 : Vec F S8192x128 .f32) (x1 : Vec F S128x128 .f32) (x2 : Vec F S8192x128 .f32) :
    sout0_A_0 c i a1 h1 a2 h2 a3 h3 a4 h4 a5 h5 hc0 hc1 x0 x1 x2 = k0_pay2 x0 x1 (k0_pay1 (F := F)) := by
  unfold sout0_A_0
  rw [View.read_writes_eq_canon _ _ _ (scover0_A_0 c i a1 h1 a2 h2 a3 h3 a4 h4 a5 h5 hc0 hc1 x0 x1 x2)]
  unfold kernelRun0_A
  dsimp only
  sl_unfold_words
  rw [View.canon_cons_unit_zero (S := S8192x128) origin2]
  simp only [View.readAt_eq_ld, h1.read_unread, h2.read_unread, View.ld_unit_zero (S := S8192x128) origin2,
    View.ld_unit_zero (S := S128x128) origin2, View.readCov_unit_zero (S := S8192x128) _ origin2]

end Cert.KernelIdeal.Accum

end
-- ==== Proof.Spec.lean ====
/-
  The mathematics shared by both programs, stated on the extended reals with no program in sight.

  The pair sensitivity of a distance `d`: inside the cutoff (`d < 1/2`) it is
  `exp (-(1/d - 1)² / (1/2))`, outside it is `0`; the masked quotient is taken of `1` where the
  mask fails, so no branch divides by a distance outside the cutoff. One program writes the
  negation as `0 - x`, the other as `-x`: on the extended reals these agree for every `x`,
  infinite ones included (`zero_sub_eq_neg`).

  The accumulation: a sum over `8192` source indices taken `128` at a time, block after block,
  is the sum over all of them — addition of extended reals is associative and commutative, so no
  finiteness is needed (`range_block_step`, `range_full`).
-/
import Idealize.ShloMosaic.PureOps.Ideal
import Idealize.ShloMosaic.PureOps.Ideal.Laws
import Idealize.ShloMosaic.Lib.ValueIdx

noncomputable section

open scoped BigOperators

namespace Cert.Pairwise

open Idealize.ShloMosaic

/-- `0 - x = -x` on every extended real (the zero word denotes `0`). -/
theorem zero_sub_eq_neg (x : EReal) : Ideal.ofBits .f32 0x00000000#32 - x = -x := by
  rw [Ideal.ofBits_zero_f32, sub_eq_add_neg, zero_add]

/-- The mask of the cutoff: `d < 1/2`, as a bit. -/
def inCut (d : EReal) : BitVec 1 := Ideal.cmp .olt d (Ideal.ofBits .f32 0x3F000000#32)

/-- `1/r - 1` with `r` the distance inside the cutoff and `1` outside it. -/
def gap (d : EReal) : EReal :=
  Ideal.div (Ideal.ofBits .f32 0x3F800000#32) (Scalar.select (inCut d) d (Ideal.ofBits .f32 0x3F800000#32))
    - Ideal.ofBits .f32 0x3F800000#32

/-- The pair sensitivity, the negation written as a difference from zero. -/
def sens (d : EReal) : EReal :=
  Scalar.select (inCut d)
    (Ideal.exp (Ideal.div (Ideal.ofBits .f32 0x00000000#32 - gap d * gap d) (Ideal.ofBits .f32 0x3F000000#32)))
    (Ideal.ofBits .f32 0x00000000#32)

/-- The same with the negation written as such. -/
theorem sens_eq_neg (d : EReal) :
    sens d = Scalar.select (inCut d)
      (Ideal.exp (Ideal.div (-(gap d * gap d)) (Ideal.ofBits .f32 0x3F000000#32)))
      (Ideal.ofBits .f32 0x00000000#32) := by
  unfold sens; rw [zero_sub_eq_neg]

/-- One more block of `128` terms extends the partial sum over the first `128 (n + 1)` indices to the
    first `128 (n + 2)`. -/
theorem range_block_step (g : ℕ → EReal) (n : ℕ) :
    ∑ i ∈ Finset.range (128 * (n + 1)), g i + ∑ j : Fin 128, g (128 * (n + 1) + j.val)
      = ∑ i ∈ Finset.range (128 * (n + 1 + 1)), g i := by
  rw [show 128 * (n + 1 + 1) = 128 * (n + 1) + 128 by ring, Finset.sum_range_add]
  exact congrArg (_ + ·) (Finset.sum_range fun x => g (128 * (n + 1) + x)).symm

/-- The first block alone. -/
theorem range_block_zero (g : ℕ → EReal) :
    ∑ j : Fin 128, g (128 * 0 + j.val) = ∑ i ∈ Finset.range (128 * (0 + 1)), g i := by
  rw [show 128 * (0 + 1) = 128 by norm_num, Finset.sum_range]
  exact Finset.sum_congr rfl fun j _ => by rw [Nat.mul_zero, Nat.zero_add]

/-- All sixty-four blocks: the sum over every source index. -/
theorem range_full (g : ℕ → EReal) :
    ∑ i ∈ Finset.range (128 * (63 + 1)), g i = ∑ i : Fin 8192, g i.val := by
  rw [show 128 * (63 + 1) = 8192 by norm_num, Finset.sum_range]

end Cert.Pairwise

end
-- ==== Proof.KPayload.lean ====
/-
  The body's arithmetic, read one element at a time on the extended reals.

  `update a` at row `r`, lane `h` is `a[r, h] + Σ_j sens(tile[r, j]) · msg[j, h]` over the tile's 128 source
  indices `j`: the two changes of float format are the identity, the masked select / quotient / exponential
  chain is the pair sensitivity of `Spec`, and a matrix product into a zero accumulator is the plain sum
  of products over the one contracted axis. The zero block is zero. The output block's lane `h` is the
  sum over all 8192 rows of on-site plus accumulator.
-/
import proofs.«134853_j32134945309414_1_alg».proof.Proof.Gen.KernelIdeal.Skeleton
import proofs.«134853_j32134945309414_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.Accum

open Cert.KernelIdeal Cert.KernelIdeal.Gen Cert.Pairwise

/-- The block the reset stores is zero everywhere. -/
theorem reset_apply (j : S8192x128.Idx) : (k0_pay1 (F := Ideal)) j = 0 := by
  unfold k0_pay1
  simp only [shapeCast_self]
  exact Ideal.ofBits_zero_f32

/-! The product's operand indices: row `r` of the left operand and lane `h` of the right one are kept, the one
    contracted coordinate runs along the left operand's lanes and the right operand's rows. -/

theorem upd_lhs_0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem upd_lhs_1 (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
theorem upd_rhs_0 (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
theorem upd_rhs_1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- The update at `(r, h)`: the accumulator there plus the tile's 128 products. -/
theorem update_apply (x0 : Vec Ideal S8192x128 .f32) (x1 : Vec Ideal S128x128 .f32) (a : Vec Ideal S8192x128 .f32)
    (r : Fin 8192) (h : Fin 128) :
    k0_pay2 x0 x1 a (ix2 r h) = a (ix2 r h) + ∑ j : Fin 128, sens (x0 (ix2 r j)) * x1 (ix2 j h) := by
  unfold k0_pay2
  simp only [shapeCast_self]
  refine (congrArg (a (ix2 r h) + ·) (Ideal.matmul_constant_zero_apply dot_S8192x128_S128x128_S8192x128_1_0_0_1_n_n none _ _ (ix2 r h))).trans ?_
  refine congrArg (a (ix2 r h) + ·) ?_
  rw [← Equiv.sum_comp (contrEquiv1 dot_S8192x128_S128x128_S8192x128_1_0_0_1_n_n 128 rfl rfl).symm]
  refine Finset.sum_congr rfl fun k _ => ?_
  have hk := contrEquiv1_symm_val dot_S8192x128_S128x128_S8192x128_1_0_0_1_n_n 128 rfl rfl k
  have el : dot_S8192x128_S128x128_S8192x128_1_0_0_1_n_n.lhsIdx (ix2 r h) ((contrEquiv1 dot_S8192x128_S128x128_S8192x128_1_0_0_1_n_n 128 rfl rfl).symm k) = ix2 r k := funext fun a => Fin.ext (by
    match a with
    | ⟨0, _⟩ => exact upd_lhs_0 _ _
    | ⟨1, _⟩ => exact (upd_lhs_1 _ _).trans hk)
  have er : dot_S8192x128_S128x128_S8192x128_1_0_0_1_n_n.rhsIdx (ix2 r h) ((contrEquiv1 dot_S8192x128_S128x128_S8192x128_1_0_0_1_n_n 128 rfl rfl).symm k) = ix2 k h := funext fun a => Fin.ext (by
    match a with
    | ⟨0, _⟩ => exact (upd_rhs_0 _ _).trans hk
    | ⟨1, _⟩ => exact upd_rhs_1 _ _)
  rw [el, er]
  rfl

/-- The output block at lane `h`: the sum over the 8192 rows of on-site plus accumulator. -/
theorem colsum_apply (z a : Vec Ideal S8192x128 .f32) (h : Fin 128) :
    k0_pay3 z a (ix2 (0 : Fin 1) h) = ∑ r : Fin 8192, (z (ix2 r h) + a (ix2 r h)) := by
  unfold k0_pay3
  simp only [shapeCast_self]
  refine (shapeCast_a_1a_apply _ _ (0 : Fin 1) h).trans ?_
  refine (Ideal.multiReduction_add_single _ _ reduces_S8192x128_S128 _ _ (ix1 h)).trans ?_
  refine Finset.sum_congr rfl fun k _ => ?_
  have e : reduces_S8192x128_S128.lift (ix1 h) k = ix2 k h := funext fun b => Fin.ext (by
    match b with
    | ⟨0, _⟩ => rfl
    | ⟨1, _⟩ => rfl)
  rw [e]
  rfl

end Cert.KernelIdeal.Accum

end
-- ==== Proof.KInvariant.lean ====
/-
  The accumulator across the grid, and the output block.

  Point `t` of the grid reads column tile `t` of the distance array (rows all, columns `128 t … 128 t + 127`),
  row tile `t` of the message array (rows `128 t … 128 t + 127`) and the whole on-site array. So the
  product it adds at `(r, h)` is `Σ_j sens(dist[r, 128 t + j]) · msg[128 t + j, h]`: the terms
  `128 t … 128 t + 127` of one sequence indexed by the source index. By induction on the point, the
  accumulator after point `n` is the partial sum of that sequence over the first `128 (n + 1)` source
  indices; after the last point it is the whole sum, and the output block's lane `h` is
  `Σ_r (site[r, h] + Σ_i sens(dist[r, i]) · msg[i, h])`.
-/
import proofs.«134853_j32134945309414_1_alg».proof.Proof.KPieces
import proofs.«134853_j32134945309414_1_alg».proof.Proof.KPayload

noncomputable section

open scoped BigOperators
open Idealize.ShloMosaic Idealize.ShloMosaic.TcCoe Idealize.SL.Sem Idealize.ShloMosaic.ValueIdx

namespace Cert.KernelIdeal.Accum

open Cert.KernelIdeal Cert.KernelIdeal.Gen Cert.Pairwise

variable (m : (ℓ : Loc nD τ sig) → Buf (Elt Ideal) ℓ)

/-- The three arrays the region reads, as it finds them. -/
abbrev distArr (c : Dev nD) : Vec Ideal S8192x8192 .f32 := V m c main_arg1
abbrev msgArr (c : Dev nD) : Vec Ideal S8192x128 .f32 := V m c main_v8
abbrev siteArr (c : Dev nD) : Vec Ideal S8192x128 .f32 := V m c main_v4

/-- Their blocks at a grid point. -/
abbrev distBlk (c : Dev nD) (t : Fin cfg0.N) : Vec Ideal S8192x128 .f32 := iblk m c 0 t
abbrev msgBlk (c : Dev nD) (t : Fin cfg0.N) : Vec Ideal S128x128 .f32 := iblk m c 1 t
abbrev siteBlk (c : Dev nD) (t : Fin cfg0.N) : Vec Ideal S8192x128 .f32 := iblk m c 2 t

/-- Where each window's block sits at point `t`: the distance tile moves along the columns, the message
    tile along the rows, the on-site block does not move. -/
theorem tile_index : ∀ t : Fin cfg0.N,
    win0_0.index t (0 : Fin 2) = 0 ∧ win0_0.index t (1 : Fin 2) = t.val
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

theorem point_lt (t : Fin cfg0.N) : t.val < 64 := lt_of_lt_of_eq t.isLt (show cfg0.N = 64 from N_0)

/-- The distance tile at `(r, j)` is the array at `(r, 128 t + j)`. -/
theorem distBlk_apply (c : Dev nD) (t : Fin cfg0.N) (r : Fin 8192) (j : Fin 128) (hlt : 128 * t.val + j.val < 8192) :
    distBlk m c t (ix2 r j) = distArr m c (ix2 r ⟨128 * t.val + j.val, hlt⟩) := by
  show iblk m c 0 t (ix2 r j) = _
  unfold iblk
  rw [View.read_apply]
  show V m c main_arg1 _ = V m c main_arg1 _
  refine congrArg (V m c main_arg1) (funext fun a => Fin.ext ?_)
  match a with
  | ⟨0, _⟩ => show win0_0.index t 0 * 8192 + 1 * r.val = r.val; rw [(tile_index t).1]; omega
  | ⟨1, _⟩ => show win0_0.index t 1 * 128 + 1 * j.val = 128 * t.val + j.val; rw [(tile_index t).2.1]; omega

/-- The message tile at `(j, h)` is the array at `(128 t + j, h)`. -/
theorem msgBlk_apply (c : Dev nD) (t : Fin cfg0.N) (j : Fin 128) (h : Fin 128) (hlt : 128 * t.val + j.val < 8192) :
    msgBlk m c t (ix2 j h) = msgArr m c (ix2 ⟨128 * t.val + j.val, hlt⟩ h) := by
  show iblk m c 1 t (ix2 j h) = _
  unfold iblk
  rw [View.read_apply]
  show V m c main_v8 _ = V m c main_v8 _
  refine congrArg (V m c main_v8) (funext fun a => Fin.ext ?_)
  match a with
  | ⟨0, _⟩ => show win0_1.index t 0 * 128 + 1 * j.val = 128 * t.val + j.val; rw [(tile_index t).2.2.1]; omega
  | ⟨1, _⟩ => show win0_1.index t 1 * 128 + 1 * h.val = h.val; rw [(tile_index t).2.2.2.1]; omega

/-- The on-site block is the whole array. -/
theorem siteBlk_apply (c : Dev nD) (t : Fin cfg0.N) (r : Fin 8192) (h : Fin 128) :
    siteBlk m c t (ix2 r h) = siteArr m c (ix2 r h) := by
  show iblk m c 2 t (ix2 r h) = _
  unfold iblk
  rw [View.read_apply]
  show V m c main_v4 _ = V m c main_v4 _
  refine congrArg (V m c main_v4) (funext fun a => Fin.ext ?_)
  match a with
  | ⟨0, _⟩ => show win0_2.index t 0 * 8192 + 1 * r.val = r.val; rw [(tile_index t).2.2.2.2.1]; omega
  | ⟨1, _⟩ => show win0_2.index t 1 * 128 + 1 * h.val = h.val; rw [(tile_index t).2.2.2.2.2]; omega

/-- The sequence the accumulator sums, by source index: the pair sensitivity of `dist[r, i]` times
    `msg[i, h]` (zero past the last source index, which no sum below reaches). -/
def term (c : Dev nD) (r : Fin 8192) (h : Fin 128) (i : ℕ) : EReal :=
  if hi : i < 8192 then sens (distArr m c (ix2 r ⟨i, hi⟩)) * msgArr m c (ix2 ⟨i, hi⟩ h) else 0

theorem term_of_lt (c : Dev nD) (r : Fin 8192) (h : Fin 128) (i : ℕ) (hi : i < 8192) :
    term m c r h i = sens (distArr m c (ix2 r ⟨i, hi⟩)) * msgArr m c (ix2 ⟨i, hi⟩ h) := dif_pos hi

/-- The update at point `t` adds the terms `128 t … 128 t + 127`. -/
theorem update_point (c : Dev nD) (t : Fin cfg0.N) (a : Vec Ideal S8192x128 .f32) (r : Fin 8192) (h : Fin 128) :
    k0_pay2 (distBlk m c t) (msgBlk m c t) a (ix2 r h)
      = a (ix2 r h) + ∑ j : Fin 128, term m c r h (128 * t.val + j.val) := by
  refine (update_apply _ _ a r h).trans (congrArg (a (ix2 r h) + ·) (Finset.sum_congr rfl fun j _ => ?_))
  have hlt : 128 * t.val + j.val < 8192 := by have := point_lt t; have := j.isLt; omega
  rw [distBlk_apply m c t r j hlt, msgBlk_apply m c t j h hlt, term_of_lt m c r h _ hlt]

/-- THE INVARIANT: after point `n` the accumulator at `(r, h)` is the partial sum over the first `128 (n + 1)`
    source indices. -/
theorem acc_eq (c : Dev nD) : ∀ (n : ℕ) (hn : n < cfg0.N) (r : Fin 8192) (h : Fin 128),
    (outsAt0 m c n hn).2 (ix2 r h) = ∑ i ∈ Finset.range (128 * (n + 1)), term m c r h i
  | 0, hn, r, h => by
    rw [outsAt0_A m c ⟨0, hn⟩ rfl (by show ¬(0 % 64 = 63); decide)]
    dsimp only
    refine (congrFun (carried_first (F := Ideal) c (grid0.coords ⟨0, hn⟩) (ms0_0 ⟨0, hn⟩) (hs0_0 ⟨0, hn⟩) (ms0_1 ⟨0, hn⟩) (hs0_1 ⟨0, hn⟩)
      (ms0_2 ⟨0, hn⟩) (hs0_2 ⟨0, hn⟩) (ms0_3 ⟨0, hn⟩) (hs0_3 ⟨0, hn⟩) scM0_0 (Memref.isWhole_whole _) _ _
      (iblk m c 0 ⟨0, hn⟩) (iblk m c 1 ⟨0, hn⟩) (iblk m c 2 ⟨0, hn⟩)) (ix2 r h)).trans ?_
    refine (update_point m c ⟨0, hn⟩ (k0_pay1 (F := Ideal)) r h).trans ?_
    rw [reset_apply, zero_add]
    exact range_block_zero (term m c r h)
  | n + 1, hn, r, h => by
    have hN : cfg0.N = 64 := N_0
    have h0 : ¬(⟨n + 1, hn⟩ : Fin cfg0.N).val % 64 = 0 := by dsimp only; omega
    have ih := acc_eq c n (Nat.lt_of_succ_lt hn) r h
    by_cases h1 : (⟨n + 1, hn⟩ : Fin cfg0.N).val % 64 = 63
    · rw [outsAt0_C m c ⟨n + 1, hn⟩ h0 h1]
      dsimp only
      refine (congrFun (carried_last (F := Ideal) c (grid0.coords ⟨n + 1, hn⟩) (ms0_0 ⟨n + 1, hn⟩) (hs0_0 ⟨n + 1, hn⟩) (ms0_1 ⟨n + 1, hn⟩) (hs0_1 ⟨n + 1, hn⟩)
        (ms0_2 ⟨n + 1, hn⟩) (hs0_2 ⟨n + 1, hn⟩) (ms0_3 ⟨n + 1, hn⟩) (hs0_3 ⟨n + 1, hn⟩) scM0_0 (Memref.isWhole_whole _) _ _
        (iblk m c 0 ⟨n + 1, hn⟩) (iblk m c 1 ⟨n + 1, hn⟩) (iblk m c 2 ⟨n + 1, hn⟩) (outsAt0 m c n (Nat.lt_of_succ_lt hn)).2) (ix2 r h)).trans ?_
      refine (update_point m c ⟨n + 1, hn⟩ _ r h).trans ?_
      rw [ih]
      exact range_block_step (term m c r h) n
    · rw [outsAt0_B m c ⟨n + 1, hn⟩ h0 h1]
      dsimp only
      refine (congrFun (carried_mid (F := Ideal) c (grid0.coords ⟨n + 1, hn⟩) (ms0_0 ⟨n + 1, hn⟩) (hs0_0 ⟨n + 1, hn⟩) (ms0_1 ⟨n + 1, hn⟩) (hs0_1 ⟨n + 1, hn⟩)
        (ms0_2 ⟨n + 1, hn⟩) (hs0_2 ⟨n + 1, hn⟩) (ms0_3 ⟨n + 1, hn⟩) (hs0_3 ⟨n + 1, hn⟩) scM0_0 (Memref.isWhole_whole _) _ _
        (iblk m c 0 ⟨n + 1, hn⟩) (iblk m c 1 ⟨n + 1, hn⟩) (iblk m c 2 ⟨n + 1, hn⟩) (outsAt0 m c n (Nat.lt_of_succ_lt hn)).2) (ix2 r h)).trans ?_
      refine (update_point m c ⟨n + 1, hn⟩ _ r h).trans ?_
      rw [ih]
      exact range_block_step (term m c r h) n

/-- The last grid point. -/
abbrev lastPt : Fin cfg0.N := ⟨63, by rw [show cfg0.N = 64 from N_0]; decide⟩

/-- The whole accumulated product at `(r, h)`. -/
def pairSum (c : Dev nD) (r : Fin 8192) (h : Fin 128) : EReal :=
  ∑ i : Fin 8192, sens (distArr m c (ix2 r i)) * msgArr m c (ix2 i h)

theorem acc_last (c : Dev nD) (r : Fin 8192) (h : Fin 128) :
    (outsAt0 m c 63 lastPt.isLt).2 (ix2 r h) = pairSum m c r h := by
  rw [acc_eq m c 63 _ r h, range_full]
  exact Finset.sum_congr rfl fun i _ => term_of_lt m c r h i.val i.isLt

/-- THE OUTPUT BLOCK after the last point, at lane `h`. -/
theorem out_last (c : Dev nD) (h : Fin 128) :
    (outsAt0 m c 63 lastPt.isLt).1 (ix2 (0 : Fin 1) h)
      = ∑ r : Fin 8192, (siteArr m c (ix2 r h) + pairSum m c r h) := by
  have hacc : ∀ r : Fin 8192, k0_pay2 (distBlk m c lastPt) (msgBlk m c lastPt) (outsAt0 m c 62 (Nat.lt_of_succ_lt lastPt.isLt)).2 (ix2 r h)
      = pairSum m c r h := fun r => by
    rw [← acc_last m c r h, outsAt0_C m c lastPt (by decide) rfl]
    dsimp only
    exact (congrFun (carried_last (F := Ideal) c (grid0.coords lastPt) (ms0_0 lastPt) (hs0_0 lastPt) (ms0_1 lastPt) (hs0_1 lastPt)
      (ms0_2 lastPt) (hs0_2 lastPt) (ms0_3 lastPt) (hs0_3 lastPt) scM0_0 (Memref.isWhole_whole _) _ _
      (iblk m c 0 lastPt) (iblk m c 1 lastPt) (iblk m c 2 lastPt) (outsAt0 m c 62 (Nat.lt_of_succ_lt lastPt.isLt)).2) (ix2 r h)).symm
  rw [outsAt0_C m c lastPt (by decide) rfl]
  dsimp only
  refine (congrFun (output_last (F := Ideal) c (grid0.coords lastPt) (ms0_0 lastPt) (hs0_0 lastPt) (ms0_1 lastPt) (hs0_1 lastPt)
    (ms0_2 lastPt) (hs0_2 lastPt) (ms0_3 lastPt) (hs0_3 lastPt) scM0_0 (Memref.isWhole_whole _) _ _
    (iblk m c 0 lastPt) (iblk m c 1 lastPt) (iblk m c 2 lastPt) (outsAt0 m c 62 (Nat.lt_of_succ_lt lastPt.isLt)).2) (ix2 (0 : Fin 1) h)).trans ?_
  refine (colsum_apply _ _ h).trans (Finset.sum_congr rfl fun r _ => ?_)
  rw [hacc r]
  exact congrArg (· + pairSum m c r h) (siteBlk_apply m c lastPt r h)

end Cert.KernelIdeal.Accum

end
-- ==== Proof.KRun.lean ====
/-
  The kernel program's run, read as values.

  The output window has one block, the whole [1, 128] result array, written back once, after the last grid
  point; so the array ends holding what the last point stored: lane `h` the sum over rows of on-site plus
  the accumulated product. The host lines after the region reshape it to a vector of 128 lanes — the
  correction —, add the parameters to it, and scale its Euclidean norm.
-/
import proofs.«134853_j32134945309414_1_alg».proof.Proof.KInvariant
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.Pairwise

variable (m : (ℓ : Loc nD τ sig) → Buf (Elt Ideal) ℓ) (ρ : Dev nD → PrngReg)

/-- What the last point stores, as contents of the result array. -/
abbrev corrBlk (c : Dev nD) : Buf (Elt Ideal) ((c : Thread nD τ).loc main_v9) := (outsAt0 m c 63 lastPt.isLt).1

/-- The output window's block never moves: it sits at the array's origin at every point. -/
theorem out_index : ∀ t : Fin cfg0.N, win0_3.index t (0 : Fin 2) = 0 ∧ win0_3.index t (1 : Fin 2) = 0 :=
  (by decide +kernel : ∀ t : Fin grid0.N, _)

theorem out_origin (t : Fin cfg0.N) : (fun a => win0_3.index t a * main_v9.ty.shape.size a) = fun _ => 0 :=
  funext fun a => by
    match a with
    | ⟨0, _⟩ => show win0_3.index t 0 * _ = 0; rw [(out_index t).1, Nat.zero_mul]
    | ⟨1, _⟩ => show win0_3.index t 1 * _ = 0; rw [(out_index t).2, Nat.zero_mul]

/-- The only write-back is the last point's, and it writes the whole array. -/
theorem written_back (c : Dev nD) (t : Fin cfg0.N) (hf : (cfg0.win 3).flush t = true) :
    (dats m 0 c).flushed 3 t = ((cfg0.win 3).blk t).view.read (Elt Ideal) (corrBlk m c) := by
  obtain rfl : t = lastPt := Fin.ext (by have := (flush0_3 t).mp hf; have := point_lt t; show t.val = 63; omega)
  show (cfg0.win 3).cut (grid0.coords lastPt) ((dats m 0 c).after 3 lastPt) = _
  rw [after0_3]
  exact (Memref.read_access_unit_zero (Elt Ideal) main_v9 (out_origin lastPt)
    (fun a => by rw [congrFun (out_origin lastPt) a]; simp) (corrBlk m c)).symm

/-- So the result array ends holding it. -/
theorem result_array (c : Dev nD) : (dats m 0 c).arrAt 3 cfg0.N = corrBlk m c :=
  (dats m 0 c).arrAt_eq_of_cover 3 (corrBlk m c) (written_back m c) fun i =>
    ⟨lastPt, (flush0_3 lastPt).mpr rfl, by
      show i ∈ ((View.whole main_v9).slice (win0_3.rect lastPt)).set
      rw [View.set_slice_whole, Rect.mem_set_unit]
      intro a
      match a with
      | ⟨0, _⟩ =>
        have hi : (i 0 : Nat) < 1 := (i 0).isLt
        show win0_3.index lastPt 0 * win0_3.size 0 ≤ (i 0 : Nat)
          ∧ (i 0 : Nat) < win0_3.index lastPt 0 * win0_3.size 0 + win0_3.xsize (grid0.coords lastPt) 0
        rw [(out_index lastPt).1, show win0_3.xsize (grid0.coords lastPt) 0 = 1 from by decide +kernel]
        omega
      | ⟨1, _⟩ =>
        have hi : (i 1 : Nat) < 128 := (i 1).isLt
        show win0_3.index lastPt 1 * win0_3.size 1 ≤ (i 1 : Nat)
          ∧ (i 1 : Nat) < win0_3.index lastPt 1 * win0_3.size 1 + win0_3.xsize (grid0.coords lastPt) 1
        rw [(out_index lastPt).2, show win0_3.xsize (grid0.coords lastPt) 1 = 128 from by decide +kernel]
        omega⟩

/-- The correction vector: the result block with its unit axis dropped. -/
def corrVec (c : Dev nD) : FVec Ideal S128 .f32 := shapeCast S128 (corrBlk m c) shapeCasts_S1x128_S128

/-- The parameters plus a vector of 128 lanes. -/
def shifted (p v : FVec Ideal S128 .f32) : FVec Ideal S128 .f32 := addf p v

/-- The scaled norm of a vector of 128 lanes, as the host computes it: the constant times the square root
    of the sum, from zero, of the squares. -/
def scaledNorm (v : FVec Ideal S128 .f32) : FVec Ideal S_ .f32 :=
  mulf (constant (F := Ideal) S_ .f32 0x3C23D70A#32)
    (Host.sqrt (Host.reduceAdd (mulf v v) (constant (F := Ideal) S_ .f32 0x00000000#32) reducesTo_S128_S_d0 h_S_))

/-- After the region the result array is read where the pipeline left it, -/
theorem tail_reads_result (c : Dev nD) :
    Pipeline.withArrays (cfgs 0).spec c (V0 m c) (fun w => (dats m 0 c).arrAt w (cfgs 0).N) (Proc.tc.devRef main_v9)
      = corrBlk m c :=
  (Pipeline.withArrays_arr spec0 launch0.win.arr_inj c _ _ 3).trans (result_array m c)

/-- and the parameter array, which no window stages and no host line writes, as launched. -/
theorem tail_reads_params (c : Dev nD) :
    Pipeline.withArrays (cfgs 0).spec c (V0 m c) (fun w => (dats m 0 c).arrAt w (cfgs 0).N) (Proc.tc.devRef main_arg6)
      = m ((c : Thread nD τ).loc main_arg6) :=
  (Pipeline.withArrays_of_ne _ c (V0 m c) _ main_arg6 (by exact (by decide : ∀ w, Pipeline.arrRef spec0 w ≠ main_arg6))).trans
    (V_main_arg6 m c)

/-- The first result: parameters plus correction. -/
theorem tail_sum (c : Dev nD) :
    Pipeline.afterTail₀ cfgs (dats m) 0 (V0 m) [hostOps1, hostOps1_1, hostOps1_2] c main_v11
      = shifted (m ((c : Thread nD τ).loc main_arg6)) (corrVec m c) := by
  unfold Pipeline.afterTail₀
  simp only [hostOps1, hostOps1_1, hostOps1_2, List.flatten_cons, List.flatten_nil, List.append_nil, List.cons_append, List.nil_append]
  after_results
  rw [tail_reads_result m c, tail_reads_params m c]
  rfl

/-- The second result: the scaled norm of the correction. -/
theorem tail_norm (c : Dev nD) :
    Pipeline.afterTail₀ cfgs (dats m) 0 (V0 m) [hostOps1, hostOps1_1, hostOps1_2] c main_v13
      = scaledNorm (corrVec m c) := by
  unfold Pipeline.afterTail₀
  simp only [hostOps1, hostOps1_1, hostOps1_2, List.flatten_cons, List.flatten_nil, List.append_nil, List.cons_append, List.nil_append]
  after_results
  rw [tail_reads_result m c]
  rfl

/-- THE RUN of the idealized kernel program: both results named, the arguments unchanged. -/
theorem run : θ_run defs (onTc (τ := τ) (main (F := Ideal))) ⟨m, fun _ => 0, ρ⟩ fun r => ∀ c : Dev nD,
      r.2.mem ((c.tc : Thread nD τ).loc main_v11) = shifted (m ((c.tc : Thread nD τ).loc main_arg6)) (corrVec m c)
      ∧ r.2.mem ((c.tc : Thread nD τ).loc main_v13) = scaledNorm (corrVec m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v11 (Pipeline.mem_restRefs_of main_v11 (by decide) (by decide))).trans (tail_sum m c),
     ((h c).2 main_v13 (Pipeline.mem_restRefs_of main_v13 (by decide) (by decide))).trans (tail_norm m c),
     ((h c).2 main_arg0 (Pipeline.mem_restRefs_of main_arg0 (by decide) (by decide))).trans (W_main_arg0 m (dats m) c),
     ((h c).1 0).trans (((dats m 0 c).arrAt_in 0 rfl _).trans ((A_eq m c 0).trans (V_main_arg1 m c))),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c),
     ((h c).2 main_arg6 (Pipeline.mem_restRefs_of main_arg6 (by decide) (by decide))).trans (W_main_arg6 m (dats m) c)⟩)
    (run_main m ρ)

end Cert.KernelIdeal.Accum

end
-- ==== Proof.RefValue.lean ====
/-
  The reference, read one element at a time on the extended reals.

  Its sensitivity stage is, element by element, the pair sensitivity of `Spec` (the negation written as
  such; the scalar broadcasts read their constant). Its correction at lane `h` is the host's sum from zero
  over the 8192 rows of on-site plus the product row, the product a plain sum over all 8192 source indices.
-/
import proofs.«134853_j32134945309414_1_alg».proof.Defs
import proofs.«134853_j32134945309414_1_alg».proof.Proof.Gen.ReferenceIdeal.Read
import proofs.«134853_j32134945309414_1_alg».proof.Proof.Spec

noncomputable section

open scoped BigOperators
open Idealize.ShloMosaic Idealize.ShloMosaic.ValueIdx

namespace Cert.ReferenceIdeal.RefValue

open Cert.ReferenceIdeal Cert.ReferenceIdeal.Read Cert.Pairwise

/-- The reference's masked sensitivity at an element is `sens` of the distance there. -/
theorem sens_stage_apply (x1 : (⟨S8192x8192, .f32⟩ : BufTy).Contents (Elt Ideal)) (i : S8192x8192.Idx) :
    val_main_v17 (F := Ideal) x1 i = sens (x1 i) := by
  rw [sens_eq_neg]
  simp only [val_main_v17_apply, val_main_v16_apply, val_main_v15_apply, val_main_v14_apply, val_main_v13_apply,
    val_main_v12_apply, val_main_v11_apply, val_main_v10_apply, val_main_v9_apply, val_main_v8_apply, val_main_v7_apply,
    val_main_v6_apply, val_main_v5_apply, val_main_call1_v1_apply, val_main_call1_v0_apply, val_main_call2_v1_apply,
    val_main_call2_v0_apply, val_main_cst_apply, val_main_cst_0_apply, val_main_cst_1_apply, val_main_cst_2_apply,
    val_main_cst_3_apply, val_main_cst_4_apply]
  rfl

/-- The reference's correction at lane `h`. -/
theorem corr_apply (x0 : (⟨S8192x64, .f32⟩ : BufTy).Contents (Elt Ideal)) (x1 : (⟨S8192x8192, .f32⟩ : BufTy).Contents (Elt Ideal))
    (x2 : (⟨S64x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) (h : Fin 128) :
    val_main_v24 (F := Ideal) x0 x1 x2 x3 x4 x5 (ix1 h)
      = 0 + ∑ r : Fin 8192, (val_main_v4 (F := Ideal) x0 x2 x3 (ix2 r h)
          + ∑ i : Fin 8192, sens (x1 (ix2 r i)) * val_main_v21 (F := Ideal) x0 x2 x3 x4 x5 (ix2 i h)) := by
  rw [val_main_v24_apply]
  refine congr (congrArg _ Ideal.ofBits_zero_f32) (Finset.sum_congr rfl fun r _ => ?_)
  have e : idx_main_v24 (ix1 h) r = ix2 r h := funext fun a => Fin.ext (by
    match a with
    | ⟨0, _⟩ => rfl
    | ⟨1, _⟩ => rfl)
  rw [e, val_main_v23_apply, val_main_v22_apply]
  refine congrArg (val_main_v4 (F := Ideal) x0 x2 x3 (ix2 r h) + ·) (Finset.sum_congr rfl fun i _ => ?_)
  have el : lidx_main_v22 (ix2 r h) i = ix2 r i := funext fun a => Fin.ext (by
    match a with
    | ⟨0, _⟩ => rfl
    | ⟨1, _⟩ => rfl)
  have er : ridx_main_v22 (ix2 r h) i = ix2 i h := funext fun a => Fin.ext (by
    match a with
    | ⟨0, _⟩ => rfl
    | ⟨1, _⟩ => rfl)
  rw [el, er, sens_stage_apply]

end Cert.ReferenceIdeal.RefValue

end
-- ==== Proof.Bridge.lean ====
/-
  The two programs meet.

  The host lines that compute the on-site array and the message array are the same lines in both programs,
  applied to the same arguments; so what the kernel's region finds in those two arrays is what the
  reference's stages of the same name compute. With that, the kernel's correction vector and the
  reference's are, lane by lane, the same sum: `Σ_r (site[r, h] + Σ_i sens(dist[r, i]) · msg[i, h])`, the
  reference's started from an explicit zero. Everything after the correction is the same text in both.
-/
import proofs.«134853_j32134945309414_1_alg».proof.Proof.KRun
import proofs.«134853_j32134945309414_1_alg».proof.Proof.RefValue

noncomputable section

open scoped BigOperators
open Idealize.ShloMosaic Idealize.ShloMosaic.TcCoe Idealize.SL.Sem Idealize.ShloMosaic.ValueIdx

namespace Cert.Bridge

open Cert.KernelIdeal.Accum Cert.Pairwise

variable (m : (ℓ : Loc Cert.KernelIdeal.nD Cert.KernelIdeal.τ Cert.KernelIdeal.sig) → Buf (Elt Ideal) ℓ)

/-- The distance array reaches the region untouched. -/
theorem dist_eq (c : Dev Cert.KernelIdeal.nD) : distArr m c = (m ((c.tc : Thread Cert.KernelIdeal.nD Cert.KernelIdeal.τ).loc Cert.KernelIdeal.main_arg1)) :=
  Cert.KernelIdeal.Gen.V_main_arg1 m c

set_option maxHeartbeats 2000000 in
/-- The on-site array the region finds is the reference's on-site stage of the same arguments. -/
theorem site_eq (c : Dev Cert.KernelIdeal.nD) :
    (siteArr m c : Vec Ideal Cert.KernelIdeal.S8192x128 .f32)
      = Cert.ReferenceIdeal.Read.val_main_v4 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by
  show Cert.KernelIdeal.Gen.V m c Cert.KernelIdeal.main_v4 = _
  dsimp only [Cert.KernelIdeal.Gen.V, Cert.KernelIdeal.Gen.V0]
  simp only [Cert.KernelIdeal.Gen.hostOps0, Cert.KernelIdeal.Gen.hostOps0_1, Cert.KernelIdeal.Gen.hostOps0_2, List.flatten_cons, List.flatten_nil, List.append_nil,
    List.cons_append, List.nil_append]
  after_results_simp
  rfl

set_option maxHeartbeats 2000000 in
/-- The message array likewise. -/
theorem msg_eq (c : Dev Cert.KernelIdeal.nD) :
    (msgArr m c : Vec Ideal Cert.KernelIdeal.S8192x128 .f32)
      = Cert.ReferenceIdeal.Read.val_main_v21 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
  show Cert.KernelIdeal.Gen.V m c Cert.KernelIdeal.main_v8 = _
  dsimp only [Cert.KernelIdeal.Gen.V, Cert.KernelIdeal.Gen.V0]
  simp only [Cert.KernelIdeal.Gen.hostOps0, Cert.KernelIdeal.Gen.hostOps0_1, Cert.KernelIdeal.Gen.hostOps0_2, List.flatten_cons, List.flatten_nil, List.append_nil,
    List.cons_append, List.nil_append]
  after_results_simp
  rfl

/-- THE BRIDGE: the kernel's correction vector is the reference's correction stage of the same arguments. -/
theorem corr_eq (c : Dev Cert.KernelIdeal.nD) :
    corrVec m c = Cert.ReferenceIdeal.Read.val_main_v24 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
  funext j
  obtain ⟨h, rfl⟩ : ∃ h : Fin 128, j = ix1 h := ⟨j 0, eq_ix1 j⟩
  refine Eq.trans ?_ (Cert.ReferenceIdeal.RefValue.corr_apply _ _ _ _ _ _ h).symm
  rw [zero_add]
  unfold corrVec
  refine (shapeCast_1a_a_apply _ _ h).trans ?_
  refine (out_last m c h).trans (Finset.sum_congr rfl fun r _ => ?_)
  show siteArr m c (ix2 r h) + ∑ i : Fin 8192, sens (distArr m c (ix2 r i)) * msgArr m c (ix2 i h) = _
  exact congrArg₂ (· + ·) (congrFun (site_eq m c) (ix2 r h))
    (Finset.sum_congr rfl fun i _ =>
      congrArg₂ (· * ·) (congrArg sens (congrFun (dist_eq m c) (ix2 r i))) (congrFun (msg_eq m c) (ix2 i h)))

end Cert.Bridge

end
-- ==== Proof.lean ====
/-
  Pairwise sensitivity convolution with an on-site term: the kernel program against its jnp reference,
  over the extended reals.

  Both programs compute, from the same host prologue (on-site `z = softplus(geom · W_on + B_on)`, messages
  `msg = z · W_int + B_int`), the correction vector
      corr[h] = Σ_r ( z[r, h] + Σ_i sens(dist[r, i]) · msg[i, h] ),
  and return `params + corr` and `0.01 · ‖corr‖`. The reference forms the whole 8192 × 8192 sensitivity
  matrix and one matrix product; the kernel streams 64 column tiles of the distances, accumulates the 64
  partial products in a scratch, and sums the rows after the last tile. Over the extended reals a sum may be
  taken in any grouping and order, changes of float format are the identity, and `0 - x` is `-x`; nothing
  else separates the two, and no finiteness of the inputs is used.

    Spec        the pair sensitivity and the block-by-block sum, with no program in sight
    KPieces     what each control case of the kernel body stores, as pure terms
    KPayload    those terms read at an element
    KInvariant  the accumulator after each grid point, by induction; the output block
    KRun        the write-back, the host lines after the region, the kernel program's run
    RefValue    the reference's sensitivity stage and correction at an element
    Bridge      the kernel's correction vector is the reference's

  The three frames are the generated ones (the reference's is its generated run with the results dropped);
  the idealization rewrote nothing, so `preserves` is trivial.
-/
import proofs.«134853_j32134945309414_1_alg».proof.Defs
import proofs.«134853_j32134945309414_1_alg».proof.Proof.Gen.Kernel
import proofs.«134853_j32134945309414_1_alg».proof.Proof.Gen.Kernel.Skeleton
import proofs.«134853_j32134945309414_1_alg».proof.Proof.Gen.Kernel.Launch
import proofs.«134853_j32134945309414_1_alg».proof.Proof.Gen.Kernel.Points
import proofs.«134853_j32134945309414_1_alg».proof.Proof.Gen.Kernel.Frame
import proofs.«134853_j32134945309414_1_alg».proof.Proof.Gen.KernelIdeal
import proofs.«134853_j32134945309414_1_alg».proof.Proof.Gen.KernelIdeal.Skeleton
import proofs.«134853_j32134945309414_1_alg».proof.Proof.Gen.KernelIdeal.Launch
import proofs.«134853_j32134945309414_1_alg».proof.Proof.Gen.KernelIdeal.Points
import proofs.«134853_j32134945309414_1_alg».proof.Proof.Gen.KernelIdeal.Frame
import proofs.«134853_j32134945309414_1_alg».proof.Proof.Gen.ReferenceIdeal
import proofs.«134853_j32134945309414_1_alg».proof.Proof.Gen.ReferenceIdeal.Run
import proofs.«134853_j32134945309414_1_alg».proof.Proof.Gen.ReferenceIdeal.Read
import proofs.«134853_j32134945309414_1_alg».proof.Proof.Gen.Pre_finite_inputs
import proofs.«134853_j32134945309414_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories that agree on the seven arguments both programs end with `params + corr` and the scaled
    norm of `corr`, for one and the same correction vector (`Bridge.corr_eq`). -/
theorem algebraic : Cert.algebraic_KernelIdeal_ReferenceIdeal := by
  intro m ρ m' ρ' _ hagree
  refine ⟨fun c => Cert.KernelIdeal.Accum.shifted (m ((c.tc : Thread Cert.KernelIdeal.nD Cert.KernelIdeal.τ).loc Cert.KernelIdeal.main_arg6))
      (Cert.KernelIdeal.Accum.corrVec m c),
    fun c => Cert.KernelIdeal.Accum.scaledNorm (Cert.KernelIdeal.Accum.corrVec m c),
    Cert.KernelIdeal.Accum.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · beta_reduce
    rw [Cert.ReferenceIdeal.Read.val_main_v25_eq, (hagree c).1, (hagree c).2.1, (hagree c).2.2.1, (hagree c).2.2.2.1, (hagree c).2.2.2.2.1, (hagree c).2.2.2.2.2.1, (hagree c).2.2.2.2.2.2, Cert.Bridge.corr_eq m c]
    rfl
  · beta_reduce
    rw [Cert.ReferenceIdeal.Read.val_main_v27_eq, (hagree c).1, (hagree c).2.1, (hagree c).2.2.1, (hagree c).2.2.2.1, (hagree c).2.2.2.2.1, (hagree c).2.2.2.2.2.1, Cert.Bridge.corr_eq m c]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
